-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x512 : Shape := ⟨2, ![32768, 512]⟩
abbrev S768x2048 : Shape := ⟨2, ![768, 2048]⟩
abbrev S2048 : Shape := ⟨1, ![2048]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S768x2048 : S_.BroadcastsInDim S768x2048 (![] : Fin 0 → Fin S768x2048.rank)
  reducesTo_S768x2048_S_d0_1 : S768x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_arg6 : FVec F S2048 .f32) (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S32768x256 .f32) (main_arg1 : FVec F S32768x512 .f32) (main_arg2 : FVec F S32768x512 .f32) (main_arg3 : FVec F S768x2048 .f32) (main_arg4 : FVec F S2048 .f32) (main_arg5 : FVec F S2048 .f32) (main_arg6 : FVec F S2048 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_arg4 main_arg5 main_arg6 main_v13 main_v16
-- ==== Kernel.lean ====
abbrev S32768x256 : Shape := ⟨2, ![32768, 256]⟩
abbrev S32768x512 : Shape := ⟨2, ![32768, 512]⟩
abbrev S768x2048 : Shape := ⟨2, ![768, 2048]⟩
abbrev S2048 : Shape := ⟨1, ![2048]⟩
abbrev S256x2048 : Shape := ⟨2, ![256, 2048]⟩
abbrev S512x2048 : Shape := ⟨2, ![512, 2048]⟩
abbrev S1x2048 : Shape := ⟨2, ![1, 2048]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S768x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S256x2048, .f32⟩
  | .hbm, ⟨8, _⟩ => ⟨S256x2048, .bf16⟩
  | .hbm, ⟨9, _⟩ => ⟨S512x2048, .f32⟩
  | .hbm, ⟨10, _⟩ => ⟨S512x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S32768x512, .f32⟩
  | .hbm, ⟨15, _⟩ => ⟨S32768x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S256x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S768x2048_S256x2048_0_0 : S768x2048.Slices ![0, 0] S256x2048
  bitsLt_bf16_f32 : FTy.bits .bf16 < FTy.bits .f32
  slices_S768x2048_S512x2048_256_0 : S768x2048.Slices ![256, 0] S512x2048
  shapeCasts_S2048_S1x2048 : S2048.ShapeCasts S1x2048
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x256_S256x2048_S512x2048_1_0_0_1_n_n_wf : DotDims.WF S512x256 S256x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S32768x512.size a
  hwx0_9 : ∀ i : grid0.Coords, EltTy.bits .f32 = 32 ∨ (Rect.block (s := S32768x512) S512x512.size (cc0_transform_9 i) (hinb0_9 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x512 : Shape := ⟨2, ![32768, 512]⟩
abbrev S768x2048 : Shape := ⟨2, ![768, 2048]⟩
abbrev S2048 : Shape := ⟨1, ![2048]⟩
abbrev S32768x768 : Shape := ⟨2, ![32768, 768]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 75
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S768x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S32768x768, .f32⟩
  | .hbm, ⟨8, _⟩ => ⟨S32768x2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S_, .f32⟩
  | .hbm, ⟨64, _⟩ => ⟨S32768x512, .f32⟩
  | .hbm, ⟨65, _⟩ => ⟨S32768x512, .f32⟩
  | .hbm, ⟨66, _⟩ => ⟨S_, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  concatenates_S32768x256_S32768x512_S32768x768_d1 : Shape.Concatenates [S32768x256, S32768x512] S32768x768 1
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  dot_S32768x768_S768x2048_S32768x2048_1_0_0_1_n_n_wf : DotDims.WF S32768x768 S768x2048 S32768x2048 [1] [0] [0] [1] [] []

variable [Facts₀]

def dot_S32768x768_S768x2048_S32768x2048_1_0_0_1_n_n : DotDims S32768x768 S768x2048 S32768x2048 where
  lhsContracting := [1]
  rhsContracting := [0]
  lhsNonContracting := [0]
  rhsNonContracting := [1]
  lhsBatch := []
  rhsBatch := []
  wf := dot_S32768x768_S768x2048_S32768x2048_1_0_0_1_n_n_wf

class Facts : Prop extends Facts₀ where

variable [Facts]
-- ==== Proof.CellSpec.lean ====
/-
  The layer-normalised LSTM cell on the extended reals, one batch row at a time.

  For a batch row let z_j (j < 2048) be the pre-activation: the row of x against the first 256 rows of W, plus the row
  of h against the last 512 rows of W, plus the bias b_j. The row is normalised,
      μ = (Σ_j z_j) / 2048,    σ² = (Σ_j (z_j − μ)²) / 2048,    gate_j = (z_j − μ) · (σ² + ε)^(−1/2) · γ_j + β_j,
  and cut into four runs of 512 lanes: input, forget, candidate, output. With s the logistic function,
      c'_q = s(gate_{512+q}) · c_q + s(gate_q) · tanh(gate_{1024+q}),        h'_q = s(gate_{1536+q}) · tanh(c'_q).
  The divisor 2048 and ε enter as the f32 words both programs carry, so neither is ever evaluated.

  Also here: a sum of 768 terms is the sum of its first 256 and of its last 512. Addition on the extended reals is a
  commutative monoid, so this asks for no finiteness; it is what joins a product against the joined row [x | h] to the
  sum of the two separate products.
-/
import Idealize.ShloMosaic.PureOps.Ideal.Laws
import Idealize.ShloMosaic.Lib.ValueIdx

noncomputable section

namespace Cert.CellSpec

open Idealize.ShloMosaic Idealize.ShloMosaic.ValueIdx

/-- The divisor 2048, as the f32 word both programs divide by. -/
abbrev nWord : EReal := Ideal.ofBits .f32 0x45000000#32

/-- ε, as the f32 word both programs add to the variance. -/
abbrev epsWord : EReal := Ideal.ofBits .f32 0x3727C5AC#32

/-- A row's mean: the sum over its 2048 lanes, divided by 2048. -/
def rowMean (v : Fin 2048 → EReal) : EReal := Ideal.div (∑ j : Fin 2048, v j) nWord

/-- A row with its mean taken off. -/
def centred (v : Fin 2048 → EReal) (j : Fin 2048) : EReal := v j - rowMean v

/-- A row's variance: the mean of the squares of the centred row. -/
def rowVar (v : Fin 2048 → EReal) : EReal := rowMean fun j => centred v j * centred v j

/-- The normalised row scaled by γ, before β is added. -/
def scaled (v gam : Fin 2048 → EReal) (j : Fin 2048) : EReal :=
  centred v j * Ideal.rsqrt (rowVar v + epsWord) * gam j

/-- The four gates' pre-activations of a row, side by side. -/
def gate (v gam bet : Fin 2048 → EReal) (j : Fin 2048) : EReal := scaled v gam j + bet j

/-- Lane `q` of the run of 512 lanes that starts at `off`. -/
abbrev lane (off : Nat) (hoff : off + 512 ≤ 2048) (q : Fin 512) : Fin 2048 :=
  ⟨q.val + off, by have := q.isLt; omega⟩

/-- The new cell state at lane `q`: forget gate times the old state plus input gate times candidate. -/
def cNew (g : Fin 2048 → EReal) (cp : EReal) (q : Fin 512) : EReal :=
  Ideal.logistic (g (lane 512 (by decide) q)) * cp
    + Ideal.logistic (g (lane 0 (by decide) q)) * Ideal.tanh (g (lane 1024 (by decide) q))

/-- The new hidden state at lane `q`: output gate times tanh of the new cell state. -/
def hNew (g : Fin 2048 → EReal) (cp : EReal) (q : Fin 512) : EReal :=
  Ideal.logistic (g (lane 1536 (by decide) q)) * Ideal.tanh (cNew g cp q)

/-- Row `k` of the x-half of W (its first 256 rows). -/
abbrev wTop (k : Fin 256) : Fin 768 := ⟨k.val, by have := k.isLt; omega⟩

/-- Row `k` of the h-half of W (its last 512 rows). -/
abbrev wBot (k : Fin 512) : Fin 768 := ⟨256 + k.val, by have := k.isLt; omega⟩

/-- The pre-activation of batch row `r` at lane `j`: x's row against W's first 256 rows, h's row against W's last
    512 rows, and the bias. -/
def preAct (x : (⟨2, ![32768, 256]⟩ : Shape).Idx → EReal) (h : (⟨2, ![32768, 512]⟩ : Shape).Idx → EReal)
    (W : (⟨2, ![768, 2048]⟩ : Shape).Idx → EReal) (b : (⟨1, ![2048]⟩ : Shape).Idx → EReal)
    (r : Fin 32768) (j : Fin 2048) : EReal :=
  (∑ k : Fin 256, x (ix2 r k) * W (ix2 (wTop k) j)) + (∑ k : Fin 512, h (ix2 r k) * W (ix2 (wBot k) j)) + b (ix1 j)

/-- The gates of batch row `r`. -/
def gatesOf (x : (⟨2, ![32768, 256]⟩ : Shape).Idx → EReal) (h : (⟨2, ![32768, 512]⟩ : Shape).Idx → EReal)
    (W : (⟨2, ![768, 2048]⟩ : Shape).Idx → EReal) (b gam bet : (⟨1, ![2048]⟩ : Shape).Idx → EReal)
    (r : Fin 32768) : Fin 2048 → EReal :=
  gate (preAct x h W b r) (fun j => gam (ix1 j)) (fun j => bet (ix1 j))

/-- The new cell state, as one function of the seven argument arrays. -/
def cellC (x : (⟨2, ![32768, 256]⟩ : Shape).Idx → EReal) (h cp : (⟨2, ![32768, 512]⟩ : Shape).Idx → EReal)
    (W : (⟨2, ![768, 2048]⟩ : Shape).Idx → EReal) (b gam bet : (⟨1, ![2048]⟩ : Shape).Idx → EReal) :
    (⟨2, ![32768, 512]⟩ : Shape).Idx → EReal :=
  fun i => cNew (gatesOf x h W b gam bet (i 0)) (cp i) (i 1)

/-- The new hidden state, as one function of the seven argument arrays. -/
def cellH (x : (⟨2, ![32768, 256]⟩ : Shape).Idx → EReal) (h cp : (⟨2, ![32768, 512]⟩ : Shape).Idx → EReal)
    (W : (⟨2, ![768, 2048]⟩ : Shape).Idx → EReal) (b gam bet : (⟨1, ![2048]⟩ : Shape).Idx → EReal) :
    (⟨2, ![32768, 512]⟩ : Shape).Idx → EReal :=
  fun i => hNew (gatesOf x h W b gam bet (i 0)) (cp i) (i 1)

/-- A sum of 768 terms is the sum of its first 256 and of its last 512. -/
theorem sum_768_split (f : Fin 768 → EReal) :
    ∑ k : Fin 768, f k = (∑ k : Fin 256, f (wTop k)) + ∑ k : Fin 512, f (wBot k) :=
  Fin.sum_univ_add (a := 256) (b := 512) f

/-- The f32 word of 1.0 is the extended real 1. -/
theorem one_word : Ideal.ofBits .f32 0x3F800000#32 = 1 := IdealRules.sign_bit.ideal_onePat .f32

/-- jax's spelling of the logistic function, 1 / (1 + e^(−a)) with both ones the f32 word of 1.0, is the logistic
    function. -/
theorem logistic_spelled (a : EReal) :
    Ideal.div (Ideal.ofBits .f32 0x3F800000#32) (Ideal.ofBits .f32 0x3F800000#32 + Ideal.exp (-a)) = Ideal.logistic a := by
  rw [one_word]; rfl

end Cert.CellSpec

end
-- ==== Proof.LibColumn.lean ====
/-
  A column read at an index, a row's lane sum, and indices compared by their coordinates.

  Three readings a row-wise normalisation needs, generic in the extents. An `[a]` array viewed as the column `[a, 1]`
  has, at (p, u), the operand's entry p. A column `[a, 1]` spread over `[a, b]` has, at (p, c), the column's entry at row
  p. And the sum along the lanes of an `[a, b]` array into `[a]`, on the extended reals, is at p the sum over c of the
  entries (p, c): no order of summation and no rounding is left in it. Last, two indices of a rank-1 or rank-2 shape
  are equal as soon as their coordinates are equal as numbers.
-/
import Idealize.ShloMosaic.PureOps.Ideal.Laws
import Idealize.ShloMosaic.Lib.Pipeline.Value
import Idealize.ShloMosaic.Lib.ValueIdx

namespace Idealize.ShloMosaic.Column

open Idealize.ShloMosaic Idealize.ShloMosaic.ValueIdx

variable {α : Type}

/-- Two indices into an `[a]` array with the same coordinate are equal. -/
theorem ext1 {a : ℕ} {i j : (⟨1, ![a]⟩ : Shape).Idx} (h0 : (i 0).val = (j 0).val) : i = j :=
  funext fun d => Fin.ext (by match d with | ⟨0, _⟩ => exact h0)

/-- Two indices into an `[a, b]` array with the same two coordinates are equal. -/
theorem ext2 {a b : ℕ} {i j : (⟨2, ![a, b]⟩ : Shape).Idx} (h0 : (i 0).val = (j 0).val) (h1 : (i 1).val = (j 1).val) :
    i = j :=
  funext fun d => Fin.ext (by match d with | ⟨0, _⟩ => exact h0 | ⟨1, _⟩ => exact h1)

/-- An `[a]` array cast to the column `[a, 1]` reads, at (p, u), the operand at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` array, at row p, is the sum over c of its entries (p, c). -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  refine Finset.sum_congr rfl fun c _ => congrArg src ?_
  funext d
  match d with
  | ⟨0, _⟩ => rfl
  | ⟨1, _⟩ => rfl

end Idealize.ShloMosaic.Column
-- ==== Proof.RefCell.lean ====
/-
  The reference computes the layer-normalised LSTM cell of the specification.

  The reference joins x and h into one row of 768, multiplies it against the whole of W and adds the bias: entry (r, j)
  is a sum over 768 terms, whose first 256 read x against W's first 256 rows and whose last 512 read h against W's
  last 512 rows, so it is the specification's pre-activation (the sum is split in two; nothing else is used of the
  extended reals' addition than that it is a commutative monoid). From there on the reference's stages are the
  specification's, one by one: the row mean (the host sum starts from the word of zero, which is 0), the centred row,
  the variance, (variance + ε)^(−1/2), the γ-scaled row plus β, the four runs of 512 lanes, the logistic function
  spelled 1 / (1 + e^(−a)) three times, and the two results.
-/
import proofs.«118469_j77481210020038_1_alg».proof.Proof.Gen.ReferenceIdeal.Read
import proofs.«118469_j77481210020038_1_alg».proof.Proof.CellSpec
import proofs.«118469_j77481210020038_1_alg».proof.Proof.LibColumn
import Idealize.ShloMosaic.Lib.Pipeline.Value

noncomputable section

namespace Cert.ReferenceIdeal.RefCell

open Idealize.ShloMosaic Idealize.ShloMosaic.TcCoe Idealize.ShloMosaic.ValueIdx Idealize.SL.Sem
open Cert Cert.ReferenceIdeal Cert.ReferenceIdeal.Gen Cert.ReferenceIdeal.Read
open Idealize.ShloMosaic.Column (ext1 ext2)

variable (x0 : (⟨S32768x256, .f32⟩ : BufTy).Contents (Elt Ideal)) (x1 x2 : (⟨S32768x512, .f32⟩ : BufTy).Contents (Elt Ideal))
  (x3 : (⟨S768x2048, .f32⟩ : BufTy).Contents (Elt Ideal)) (x4 x5 x6 : (⟨S2048, .f32⟩ : BufTy).Contents (Elt Ideal))

/-! ## The three parameter rows, spread over the batch -/

theorem bias_apply (r : Fin 32768) (j : Fin 2048) : val_main_v3 (F := Ideal) x4 (ix2 r j) = x4 (ix1 j) :=
  (val_main_v3_apply x4 _).trans ((val_main_v2_apply x4 _).trans (congrArg x4 (ext1 rfl)))

theorem gamma_apply (r : Fin 32768) (j : Fin 2048) : val_main_v24 (F := Ideal) x5 (ix2 r j) = x5 (ix1 j) :=
  (val_main_v24_apply x5 _).trans ((val_main_v23_apply x5 _).trans (congrArg x5 (ext1 rfl)))

theorem beta_apply (r : Fin 32768) (j : Fin 2048) : val_main_v27 (F := Ideal) x6 (ix2 r j) = x6 (ix1 j) :=
  (val_main_v27_apply x6 _).trans ((val_main_v26_apply x6 _).trans (congrArg x6 (ext1 rfl)))

/-! ## The joined row and the pre-activation -/

/-- The joined row [x | h] reads x in its first 256 columns. -/
theorem joined_left (r : Fin 32768) (k : Fin 256) :
    val_main_v0 (F := Ideal) x0 x1 (ix2 r (CellSpec.wTop k)) = x0 (ix2 r k) := by
  unfold val_main_v0
  exact concatenate_pair_apply_left 1 x0 x1 concatenates_S32768x256_S32768x512_S32768x768_d1 _ rfl _ (fun b => by
    match b with
    | ⟨0, _⟩ => rfl
    | ⟨1, _⟩ => rfl)

/-- The joined row [x | h] reads h in its last 512 columns. -/
theorem joined_right (r : Fin 32768) (k : Fin 512) :
    val_main_v0 (F := Ideal) x0 x1 (ix2 r (CellSpec.wBot k)) = x1 (ix2 r k) := by
  unfold val_main_v0
  exact concatenate_pair_apply_right 1 x0 x1 concatenates_S32768x256_S32768x512_S32768x768_d1 _ rfl rfl _
    (fun b hb => by
      match b with
      | ⟨0, _⟩ => rfl
      | ⟨1, _⟩ => exact absurd rfl hb)
    (by show k.val + 256 = 256 + k.val; omega)

/-- The reference's pre-activation is the specification's: the sum over the joined row's 768 columns, split. -/
theorem pre_apply (r : Fin 32768) (j : Fin 2048) :
    val_main_v4 (F := Ideal) x0 x1 x3 x4 (ix2 r j) = CellSpec.preAct x0 x1 x3 x4 r j := by
  show val_main_v1 (F := Ideal) x0 x1 x3 (ix2 r j) + val_main_v3 (F := Ideal) x4 (ix2 r j) = _
  rw [val_main_v1_apply, bias_apply, CellSpec.sum_768_split]
  unfold CellSpec.preAct
  refine congrArg₂ (· + ·) (congrArg₂ (· + ·) (Finset.sum_congr rfl fun k _ => ?_) (Finset.sum_congr rfl fun k _ => ?_)) rfl
  · rw [show lidx_main_v1 (ix2 r j) (CellSpec.wTop k) = ix2 r (CellSpec.wTop k) from ext2 rfl rfl,
      show ridx_main_v1 (ix2 r j) (CellSpec.wTop k) = ix2 (CellSpec.wTop k) j from ext2 rfl rfl, joined_left]
  · rw [show lidx_main_v1 (ix2 r j) (CellSpec.wBot k) = ix2 r (CellSpec.wBot k) from ext2 rfl rfl,
      show ridx_main_v1 (ix2 r j) (CellSpec.wBot k) = ix2 (CellSpec.wBot k) j from ext2 rfl rfl, joined_right]

/-! ## The row's normalisation -/

theorem mean_apply (r : Fin 32768) (u : Fin 1) :
    val_main_v8 (F := Ideal) x0 x1 x3 x4 (ix2 r u) = CellSpec.rowMean fun j => val_main_v4 (F := Ideal) x0 x1 x3 x4 (ix2 r j) := by
  show Ideal.div (val_main_v6 (F := Ideal) x0 x1 x3 x4 (ix2 r u)) (val_main_v7 (F := Ideal) (ix2 r u)) = _
  rw [val_main_v6_apply, val_main_v5_apply, val_main_v7_apply]
  unfold CellSpec.rowMean
  refine congrArg₂ Ideal.div ?_ rfl
  show Ideal.ofBits .f32 0x00000000#32 + _ = _
  rw [Ideal.ofBits_zero_f32, zero_add]
  exact Finset.sum_congr rfl fun k _ => congrArg _ (ext2 rfl rfl)

theorem centred_apply (r : Fin 32768) (j : Fin 2048) :
    val_main_v10 (F := Ideal) x0 x1 x3 x4 (ix2 r j) = CellSpec.centred (fun j' => val_main_v4 (F := Ideal) x0 x1 x3 x4 (ix2 r j')) j := by
  show val_main_v4 (F := Ideal) x0 x1 x3 x4 (ix2 r j) - val_main_v9 (F := Ideal) x0 x1 x3 x4 (ix2 r j) = _
  rw [val_main_v9_apply, show idx_main_v9 (ix2 r j) = ix2 r (0 : Fin 1) from ext2 rfl rfl, mean_apply]
  rfl

/-- The reference centres the row a second time, for the scaling: the same value. -/
theorem centred_apply' (r : Fin 32768) (j : Fin 2048) :
    val_main_v17 (F := Ideal) x0 x1 x3 x4 (ix2 r j) = CellSpec.centred (fun j' => val_main_v4 (F := Ideal) x0 x1 x3 x4 (ix2 r j')) j := by
  show val_main_v4 (F := Ideal) x0 x1 x3 x4 (ix2 r j) - val_main_v16 (F := Ideal) x0 x1 x3 x4 (ix2 r j) = _
  rw [val_main_v16_apply, show idx_main_v16 (ix2 r j) = ix2 r (0 : Fin 1) from ext2 rfl rfl, mean_apply]
  rfl

theorem var_apply (r : Fin 32768) (u : Fin 1) :
    val_main_v15 (F := Ideal) x0 x1 x3 x4 (ix2 r u) = CellSpec.rowVar fun j => val_main_v4 (F := Ideal) x0 x1 x3 x4 (ix2 r j) := by
  show Ideal.div (val_main_v13 (F := Ideal) x0 x1 x3 x4 (ix2 r u)) (val_main_v14 (F := Ideal) (ix2 r u)) = _
  rw [val_main_v13_apply, val_main_v12_apply, val_main_v14_apply]
  unfold CellSpec.rowVar CellSpec.rowMean
  refine congrArg₂ Ideal.div ?_ rfl
  show Ideal.ofBits .f32 0x00000000#32 + _ = _
  rw [Ideal.ofBits_zero_f32, zero_add]
  refine Finset.sum_congr rfl fun k _ => ?_
  rw [show idx_main_v12 (idx_main_v13 (ix2 r u)) k = ix2 r k from ext2 rfl rfl]
  show val_main_v10 (F := Ideal) x0 x1 x3 x4 (ix2 r k) * val_main_v10 (F := Ideal) x0 x1 x3 x4 (ix2 r k) = _
  rw [centred_apply]

theorem inv_apply (r : Fin 32768) (u : Fin 1) :
    val_main_v20 (F := Ideal) x0 x1 x3 x4 (ix2 r u)
      = Ideal.rsqrt (CellSpec.rowVar (fun j => val_main_v4 (F := Ideal) x0 x1 x3 x4 (ix2 r j)) + CellSpec.epsWord) := by
  show Ideal.rsqrt (val_main_v15 (F := Ideal) x0 x1 x3 x4 (ix2 r u) + val_main_v18 (F := Ideal) (ix2 r u)) = _
  rw [var_apply, val_main_v18_apply]
  rfl

/-- The four gates' pre-activations of row r, side by side. -/
theorem gates_apply (r : Fin 32768) (j : Fin 2048) :
    val_main_v28 (F := Ideal) x0 x1 x3 x4 x5 x6 (ix2 r j)
      = CellSpec.gate (fun j' => val_main_v4 (F := Ideal) x0 x1 x3 x4 (ix2 r j')) (fun j' => x5 (ix1 j')) (fun j' => x6 (ix1 j')) j := by
  show val_main_v17 (F := Ideal) x0 x1 x3 x4 (ix2 r j) * val_main_v21 (F := Ideal) x0 x1 x3 x4 (ix2 r j)
      * val_main_v24 (F := Ideal) x5 (ix2 r j) + val_main_v27 (F := Ideal) x6 (ix2 r j) = _
  rw [centred_apply', val_main_v21_apply, show idx_main_v21 (ix2 r j) = ix2 r (0 : Fin 1) from ext2 rfl rfl, inv_apply,
    gamma_apply, beta_apply]
  rfl

theorem gatesRow_eq (r : Fin 32768) :
    (fun j => val_main_v28 (F := Ideal) x0 x1 x3 x4 x5 x6 (ix2 r j)) = CellSpec.gatesOf x0 x1 x3 x4 x5 x6 r := by
  funext j
  rw [gates_apply]
  unfold CellSpec.gatesOf
  exact congrArg (fun v => CellSpec.gate v (fun j' => x5 (ix1 j')) (fun j' => x6 (ix1 j')) j)
    (funext fun j' => pre_apply x0 x1 x3 x4 r j')

/-! ## The four runs of lanes -/

theorem run0_apply (r : Fin 32768) (q : Fin 512) :
    val_main_v29 (F := Ideal) x0 x1 x3 x4 x5 x6 (ix2 r q) = val_main_v28 (F := Ideal) x0 x1 x3 x4 x5 x6 (ix2 r (CellSpec.lane 0 (by decide) q)) :=
  (val_main_v29_apply x0 x1 x3 x4 x5 x6 _).trans (congrArg _ (ext2 rfl rfl))

theorem run512_apply (r : Fin 32768) (q : Fin 512) :
    val_main_v30 (F := Ideal) x0 x1 x3 x4 x5 x6 (ix2 r q) = val_main_v28 (F := Ideal) x0 x1 x3 x4 x5 x6 (ix2 r (CellSpec.lane 512 (by decide) q)) :=
  (val_main_v30_apply x0 x1 x3 x4 x5 x6 _).trans (congrArg _ (ext2 rfl (Nat.add_comm _ _)))

theorem run1024_apply (r : Fin 32768) (q : Fin 512) :
    val_main_v31 (F := Ideal) x0 x1 x3 x4 x5 x6 (ix2 r q) = val_main_v28 (F := Ideal) x0 x1 x3 x4 x5 x6 (ix2 r (CellSpec.lane 1024 (by decide) q)) :=
  (val_main_v31_apply x0 x1 x3 x4 x5 x6 _).trans (congrArg _ (ext2 rfl (Nat.add_comm _ _)))

theorem run1536_apply (r : Fin 32768) (q : Fin 512) :
    val_main_v32 (F := Ideal) x0 x1 x3 x4 x5 x6 (ix2 r q) = val_main_v28 (F := Ideal) x0 x1 x3 x4 x5 x6 (ix2 r (CellSpec.lane 1536 (by decide) q)) :=
  (val_main_v32_apply x0 x1 x3 x4 x5 x6 _).trans (congrArg _ (ext2 rfl (Nat.add_comm _ _)))

/-! ## The logistic function, spelled out three times -/

theorem sigI_apply (r : Fin 32768) (q : Fin 512) :
    val_main_v38 (F := Ideal) x0 x1 x3 x4 x5 x6 (ix2 r q)
      = Ideal.logistic (val_main_v29 (F := Ideal) x0 x1 x3 x4 x5 x6 (ix2 r q)) := by
  show Ideal.div (val_main_v37 (F := Ideal) (ix2 r q))
      (val_main_v35 (F := Ideal) (ix2 r q) + Ideal.exp (-(val_main_v29 (F := Ideal) x0 x1 x3 x4 x5 x6 (ix2 r q)))) = _
  rw [val_main_v37_apply, val_main_v35_apply]
  exact CellSpec.logistic_spelled _

theorem sigF_apply (r : Fin 32768) (q : Fin 512) :
    val_main_v44 (F := Ideal) x0 x1 x3 x4 x5 x6 (ix2 r q)
      = Ideal.logistic (val_main_v30 (F := Ideal) x0 x1 x3 x4 x5 x6 (ix2 r q)) := by
  show Ideal.div (val_main_v43 (F := Ideal) (ix2 r q))
      (val_main_v41 (F := Ideal) (ix2 r q) + Ideal.exp (-(val_main_v30 (F := Ideal) x0 x1 x3 x4 x5 x6 (ix2 r q)))) = _
  rw [val_main_v43_apply, val_main_v41_apply]
  exact CellSpec.logistic_spelled _

theorem sigO_apply (r : Fin 32768) (q : Fin 512) :
    val_main_v50 (F := Ideal) x0 x1 x3 x4 x5 x6 (ix2 r q)
      = Ideal.logistic (val_main_v32 (F := Ideal) x0 x1 x3 x4 x5 x6 (ix2 r q)) := by
  show Ideal.div (val_main_v49 (F := Ideal) (ix2 r q))
      (val_main_v47 (F := Ideal) (ix2 r q) + Ideal.exp (-(val_main_v32 (F := Ideal) x0 x1 x3 x4 x5 x6 (ix2 r q)))) = _
  rw [val_main_v49_apply, val_main_v47_apply]
  exact CellSpec.logistic_spelled _

/-! ## The two results -/

theorem c_apply (r : Fin 32768) (q : Fin 512) :
    val_main_v54 (F := Ideal) x0 x1 x2 x3 x4 x5 x6 (ix2 r q)
      = CellSpec.cNew (fun j => val_main_v28 (F := Ideal) x0 x1 x3 x4 x5 x6 (ix2 r j)) (x2 (ix2 r q)) q := by
  show val_main_v44 (F := Ideal) x0 x1 x3 x4 x5 x6 (ix2 r q) * x2 (ix2 r q)
      + val_main_v38 (F := Ideal) x0 x1 x3 x4 x5 x6 (ix2 r q)
        * Ideal.tanh (val_main_v31 (F := Ideal) x0 x1 x3 x4 x5 x6 (ix2 r q)) = _
  rw [sigF_apply, sigI_apply, run512_apply, run0_apply, run1024_apply]
  rfl

theorem h_apply (r : Fin 32768) (q : Fin 512) :
    val_main_v56 (F := Ideal) x0 x1 x2 x3 x4 x5 x6 (ix2 r q)
      = CellSpec.hNew (fun j => val_main_v28 (F := Ideal) x0 x1 x3 x4 x5 x6 (ix2 r j)) (x2 (ix2 r q)) q := by
  show val_main_v50 (F := Ideal) x0 x1 x3 x4 x5 x6 (ix2 r q)
      * Ideal.tanh (val_main_v54 (F := Ideal) x0 x1 x2 x3 x4 x5 x6 (ix2 r q)) = _
  rw [sigO_apply, run1536_apply, c_apply]
  rfl

/-- The reference's second result is the specification's new cell state. -/
theorem c_eq : val_main_v54 (F := Ideal) x0 x1 x2 x3 x4 x5 x6 = CellSpec.cellC x0 x1 x2 x3 x4 x5 x6 := by
  funext i
  obtain ⟨r, q, rfl⟩ : ∃ (r : Fin 32768) (q : Fin 512), i = ix2 r q := ⟨i 0, i 1, eq_ix2 i⟩
  rw [c_apply, gatesRow_eq]
  rfl

/-- The reference's first result is the specification's new hidden state. -/
theorem h_eq : val_main_v56 (F := Ideal) x0 x1 x2 x3 x4 x5 x6 = CellSpec.cellH x0 x1 x2 x3 x4 x5 x6 := by
  funext i
  obtain ⟨r, q, rfl⟩ : ∃ (r : Fin 32768) (q : Fin 512), i = ix2 r q := ⟨i 0, i 1, eq_ix2 i⟩
  rw [h_apply, gatesRow_eq]
  rfl

end Cert.ReferenceIdeal.RefCell

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.GatesBlock.lean ====
/-
  The kernel's normalised, γ-scaled gate pre-activations, read at an entry of a block.

  At a grid point the body holds a block of 512 batch rows. Its pre-activation block is x's block against the first
  256 rows of W, plus h's block against the last 512 rows of W, plus the bias row, so entry (p, j) is
      Σ_{k<256} x(p,k)·Wx(k,j) + Σ_{k<512} h(p,k)·Wh(k,j) + b(j).
  Each row is then normalised: its mean is the lane sum over 2048 divided by the word of 2048, taken as a column and
  spread back over the lanes; the variance likewise from the squares of the centred row; the centred row times
  (variance + ε)^(−1/2), times γ's row. Every step is read at an entry: a product by the plain-product reading, a
  lane sum as a sum over the lanes, a column cast or spread as the entry of the same row, a change of float format
  as the identity. The composite is the specification's `scaled` of the row of pre-activations, and the body's
  own term for it is this composite by unfolding. Adding β's row gives the row of gates; the body cuts it into four
  runs of 512 lanes and stores, at (p, q), the specification's new cell state and new hidden state of that row of gates
  and the old state's entry.
-/
import proofs.«118469_j77481210020038_1_alg».proof.Proof.Gen.KernelIdeal.Skeleton
import proofs.«118469_j77481210020038_1_alg».proof.Proof.CellSpec
import proofs.«118469_j77481210020038_1_alg».proof.Proof.LibColumn
import proofs.«118469_j77481210020038_1_alg».proof.Proof.LibPlainDot
import Idealize.ShloMosaic.Lib.ValueLayout
import Idealize.ShloMosaic.Lib.Pipeline.Value

noncomputable section

namespace Cert.KernelIdeal.Block

open Idealize.ShloMosaic Idealize.ShloMosaic.TcCoe Idealize.ShloMosaic.ValueIdx Idealize.SL.Sem
open Cert Cert.KernelIdeal Cert.KernelIdeal.Gen

/-! ## A block's rows, normalised -/

/-- The row means of a [512, 2048] block, as the column the body spreads back over the lanes. -/
def meanCol (z : FVec Ideal S512x2048 .f32) : FVec Ideal S512x1 .f32 :=
  divf (shapeCast S512x1 (multiReduction .add [1] S512 z 0x00000000#32 reduces_S512x2048_S512 (.inl rfl) rfl) shapeCasts_S512_S512x1)
    (broadcast S512x1 (Scalar.ofBits .f32 0x45000000#32))

/-- Row p's entry of that column is the mean of row p. -/
theorem meanCol_apply (z : FVec Ideal S512x2048 .f32) (p : Fin 512) :
    meanCol z (ix2 p (0 : Fin 1)) = CellSpec.rowMean fun j => z (ix2 p j) :=
  congrArg (fun s => Ideal.div s CellSpec.nWord)
    ((Column.shapeCast_a_a1_apply _ shapeCasts_S512_S512x1 p 0).trans
      (Column.laneSum_apply z _ reduces_S512x2048_S512 _ _ p))

/-- The block with each row's mean taken off. -/
def cenBlk (z : FVec Ideal S512x2048 .f32) : FVec Ideal S512x2048 .f32 :=
  subf z (broadcastTo S512x2048 (meanCol z) broadcasts_S512x1_S512x2048)

theorem cenBlk_apply (z : FVec Ideal S512x2048 .f32) (p : Fin 512) (j : Fin 2048) :
    cenBlk z (ix2 p j) = CellSpec.centred (fun j' => z (ix2 p j')) j :=
  congrArg (fun s => z (ix2 p j) - s)
    ((Column.broadcastTo_a1_ab_apply (meanCol z) broadcasts_S512x1_S512x2048 p j).trans (meanCol_apply z p))

/-- (variance + ε)^(−1/2) of each row, as a column. -/
def invCol (z : FVec Ideal S512x2048 .f32) : FVec Ideal S512x1 .f32 :=
  rsqrt (addf (meanCol (mulf (cenBlk z) (cenBlk z))) (broadcast S512x1 (Scalar.ofBits .f32 0x3727C5AC#32)))

theorem invCol_apply (z : FVec Ideal S512x2048 .f32) (p : Fin 512) :
    invCol z (ix2 p (0 : Fin 1)) = Ideal.rsqrt (CellSpec.rowVar (fun j => z (ix2 p j)) + CellSpec.epsWord) := by
  refine congrArg (fun s => Ideal.rsqrt (s + CellSpec.epsWord)) ((meanCol_apply (mulf (cenBlk z) (cenBlk z)) p).trans ?_)
  unfold CellSpec.rowVar
  refine congrArg CellSpec.rowMean (funext fun j => ?_)
  show cenBlk z (ix2 p j) * cenBlk z (ix2 p j) = _
  rw [cenBlk_apply]

/-- A [1, 2048] row (the bias, γ or β as the body loads it) spread over the 512 rows reads, at (p, j), the row at j. -/
theorem rowSpread_apply (g : FVec Ideal S1x2048 .f32) (p : Fin 512) (j : Fin 2048) :
    broadcastTo S512x2048 (shapeCast S1x2048 g shapeCasts_S1x2048_S1x2048) broadcasts_S1x2048_S512x2048 (ix2 p j)
      = g (ix2 (0 : Fin 1) j) :=
  (broadcastTo_1b_ab_apply _ broadcasts_S1x2048_S512x2048 p j).trans
    (congrFun (shapeCast_self g shapeCasts_S1x2048_S1x2048) _)

/-- The normalised block scaled by γ's row. -/
def scaledBlk (z : FVec Ideal S512x2048 .f32) (g : FVec Ideal S1x2048 .f32) : FVec Ideal S512x2048 .f32 :=
  mulf (mulf (cenBlk z) (broadcastTo S512x2048 (invCol z) broadcasts_S512x1_S512x2048))
    (broadcastTo S512x2048 (shapeCast S1x2048 g shapeCasts_S1x2048_S1x2048) broadcasts_S1x2048_S512x2048)

theorem scaledBlk_apply (z : FVec Ideal S512x2048 .f32) (g : FVec Ideal S1x2048 .f32) (p : Fin 512) (j : Fin 2048) :
    scaledBlk z g (ix2 p j) = CellSpec.scaled (fun j' => z (ix2 p j')) (fun j' => g (ix2 (0 : Fin 1) j')) j := by
  show cenBlk z (ix2 p j) * broadcastTo S512x2048 (invCol z) broadcasts_S512x1_S512x2048 (ix2 p j)
      * broadcastTo S512x2048 (shapeCast S1x2048 g shapeCasts_S1x2048_S1x2048) broadcasts_S1x2048_S512x2048 (ix2 p j) = _
  rw [cenBlk_apply, Column.broadcastTo_a1_ab_apply, invCol_apply, rowSpread_apply]
  rfl

/-! ## A block's pre-activations -/

/-- Entry (p, j) of a block's pre-activations, from the body's loads: the two products and the bias. -/
def blockPre (P0 : FVec Ideal S512x256 .f32) (P1 : FVec Ideal S512x512 .f32) (P2 : FVec Ideal S256x2048 .bf16)
    (P3 : FVec Ideal S512x2048 .bf16) (P4 : FVec Ideal S1x2048 .f32) (p : Fin 512) (j : Fin 2048) : EReal :=
  (∑ k : Fin 256, P0 (ix2 p k) * P2 (ix2 k j)) + (∑ k : Fin 512, P1 (ix2 p k) * P3 (ix2 k j)) + P4 (ix2 (0 : Fin 1) j)

/-- The pre-activation block as the body computes it. -/
def preBlk (P0 : FVec Ideal S512x256 .f32) (P1 : FVec Ideal S512x512 .f32) (P2 : FVec Ideal S256x2048 .bf16)
    (P3 : FVec Ideal S512x2048 .bf16) (P4 : FVec Ideal S1x2048 .f32) : FVec Ideal S512x2048 .f32 :=
  addf (addf (matmul dot_S512x256_S256x2048_S512x2048_1_0_0_1_n_n none (truncf .bf16 P0 bitsLt_bf16_f32)
                (shapeCast S256x2048 P2 shapeCasts_S256x2048_S256x2048) (constant S512x2048 .f32 0x00000000#32))
             (matmul dot_S512x512_S512x2048_S512x2048_1_0_0_1_n_n none (truncf .bf16 P1 bitsLt_bf16_f32)
                (shapeCast S512x2048 P3 shapeCasts_S512x2048_S512x2048) (constant S512x2048 .f32 0x00000000#32)))
    (broadcastTo S512x2048 (shapeCast S1x2048 P4 shapeCasts_S1x2048_S1x2048) broadcasts_S1x2048_S512x2048)

/-- x's block against Wx, at (p, j). -/
theorem dotX_apply (P0 : FVec Ideal S512x256 .f32) (P2 : FVec Ideal S256x2048 .bf16) (p : Fin 512) (j : Fin 2048) :
    matmul dot_S512x256_S256x2048_S512x2048_1_0_0_1_n_n none (truncf .bf16 P0 bitsLt_bf16_f32)
        (shapeCast S256x2048 P2 shapeCasts_S256x2048_S256x2048) (constant S512x2048 .f32 0x00000000#32) (ix2 p j)
      = ∑ k : Fin 256, P0 (ix2 p k) * P2 (ix2 k j) := by
  refine (PlainDot.matmul_zero_apply 512 256 2048 (truncf .bf16 P0 bitsLt_bf16_f32)
    (shapeCast S256x2048 P2 shapeCasts_S256x2048_S256x2048) p j).trans ?_
  rw [shapeCast_self]
  rfl

/-- h's block against Wh, at (p, j). -/
theorem dotH_apply (P1 : FVec Ideal S512x512 .f32) (P3 : FVec Ideal S512x2048 .bf16) (p : Fin 512) (j : Fin 2048) :
    matmul dot_S512x512_S512x2048_S512x2048_1_0_0_1_n_n none (truncf .bf16 P1 bitsLt_bf16_f32)
        (shapeCast S512x2048 P3 shapeCasts_S512x2048_S512x2048) (constant S512x2048 .f32 0x00000000#32) (ix2 p j)
      = ∑ k : Fin 512, P1 (ix2 p k) * P3 (ix2 k j) := by
  refine (PlainDot.matmul_zero_apply 512 512 2048 (truncf .bf16 P1 bitsLt_bf16_f32)
    (shapeCast S512x2048 P3 shapeCasts_S512x2048_S512x2048) p j).trans ?_
  rw [shapeCast_self]
  rfl

theorem preBlk_apply (P0 : FVec Ideal S512x256 .f32) (P1 : FVec Ideal S512x512 .f32) (P2 : FVec Ideal S256x2048 .bf16)
    (P3 : FVec Ideal S512x2048 .bf16) (P4 : FVec Ideal S1x2048 .f32) (p : Fin 512) (j : Fin 2048) :
    preBlk P0 P1 P2 P3 P4 (ix2 p j) = blockPre P0 P1 P2 P3 P4 p j := by
  show matmul dot_S512x256_S256x2048_S512x2048_1_0_0_1_n_n none (truncf .bf16 P0 bitsLt_bf16_f32)
        (shapeCast S256x2048 P2 shapeCasts_S256x2048_S256x2048) (constant S512x2048 .f32 0x00000000#32) (ix2 p j)
      + matmul dot_S512x512_S512x2048_S512x2048_1_0_0_1_n_n none (truncf .bf16 P1 bitsLt_bf16_f32)
        (shapeCast S512x2048 P3 shapeCasts_S512x2048_S512x2048) (constant S512x2048 .f32 0x00000000#32) (ix2 p j)
      + broadcastTo S512x2048 (shapeCast S1x2048 P4 shapeCasts_S1x2048_S1x2048) broadcasts_S1x2048_S512x2048 (ix2 p j) = _
  rw [dotX_apply, dotH_apply, rowSpread_apply]
  rfl

/-! ## The body's own term -/

/-- The body's γ-scaled normalised block is the composite above, by unfolding. -/
theorem pay4_eq (P0 : FVec Ideal S512x256 .f32) (P1 : FVec Ideal S512x512 .f32) (P2 : FVec Ideal S256x2048 .bf16)
    (P3 : FVec Ideal S512x2048 .bf16) (P4 P5 : FVec Ideal S1x2048 .f32) :
    k0_pay4 (F := Ideal) P0 P1 P2 P3 P4 P5 = scaledBlk (preBlk P0 P1 P2 P3 P4) P5 := rfl

/-- So at (p, j) it is the specification's scaled row of the block's pre-activations. -/
theorem pay4_apply (P0 : FVec Ideal S512x256 .f32) (P1 : FVec Ideal S512x512 .f32) (P2 : FVec Ideal S256x2048 .bf16)
    (P3 : FVec Ideal S512x2048 .bf16) (P4 P5 : FVec Ideal S1x2048 .f32) (p : Fin 512) (j : Fin 2048) :
    k0_pay4 (F := Ideal) P0 P1 P2 P3 P4 P5 (ix2 p j)
      = CellSpec.scaled (blockPre P0 P1 P2 P3 P4 p) (fun j' => P5 (ix2 (0 : Fin 1) j')) j :=
  (congrFun (pay4_eq P0 P1 P2 P3 P4 P5) _).trans
    ((scaledBlk_apply (preBlk P0 P1 P2 P3 P4) P5 p j).trans
      (congrArg (fun v => CellSpec.scaled v (fun j' => P5 (ix2 (0 : Fin 1) j')) j)
        (funext fun j' => preBlk_apply P0 P1 P2 P3 P4 p j')))

/-! ## The two stored blocks -/

/-- A run of 512 lanes cut out of a [512, 2048] block reads, at (p, q), the block at lane q of that run. -/
theorem run_apply (off : Nat) (hoff : off + 512 ≤ 2048) (v : FVec Ideal S512x2048 .f32)
    (h : S512x2048.Slices ![0, off] S512x512) (p q : Fin 512) :
    extractStridedSlice S512x512 ![0, off] v h (ix2 p q) = v (ix2 p (CellSpec.lane off hoff q)) :=
  extractStridedSlice_apply ![0, off] v h (ix2 p q) (ix2 p (CellSpec.lane off hoff q)) (fun a => by
    match a with
    | ⟨0, _⟩ => show p.val = 0 + p.val; omega
    | ⟨1, _⟩ => show q.val + off = off + q.val; omega)

/-- The value the body stores as the new cell state, at (p, q): the specification's, of the row of gates it was cut
    from and the old state's entry. -/
theorem pay2_apply (v34 v37 : FVec Ideal S512x2048 .f32) (v47 : FVec Ideal S512x512 .f32) (p q : Fin 512) :
    k0_pay2 (F := Ideal) v34 v37 v47 (ix2 p q)
      = CellSpec.cNew (fun j => v34 (ix2 p j) + v37 (ix2 p j)) (v47 (ix2 p q)) q := by
  show Ideal.logistic (extractStridedSlice S512x512 ![0, 512] (addf v34 v37) slices_S512x2048_o0_512_S512x512 (ix2 p q))
        * v47 (ix2 p q)
      + Ideal.logistic (extractStridedSlice S512x512 ![0, 0] (addf v34 v37) slices_S512x2048_o0_0_S512x512 (ix2 p q))
        * Ideal.tanh (extractStridedSlice S512x512 ![0, 1024] (addf v34 v37) slices_S512x2048_o0_1024_S512x512 (ix2 p q)) = _
  rw [run_apply 512 (by decide), run_apply 0 (by decide), run_apply 1024 (by decide)]
  rfl

/-- The value the body stores as the new hidden state, at (p, q). -/
theorem pay3_apply (v34 v37 : FVec Ideal S512x2048 .f32) (v47 : FVec Ideal S512x512 .f32) (p q : Fin 512) :
    k0_pay3 (F := Ideal) v34 v37 v47 (ix2 p q)
      = CellSpec.hNew (fun j => v34 (ix2 p j) + v37 (ix2 p j)) (v47 (ix2 p q)) q := by
  show Ideal.logistic (extractStridedSlice S512x512 ![0, 1536] (addf v34 v37) slices_S512x2048_o0_1536_S512x512 (ix2 p q))
        * Ideal.tanh (k0_pay2 (F := Ideal) v34 v37 v47 (ix2 p q)) = _
  rw [run_apply 1536 (by decide), pay2_apply]
  rfl

/-- The gates of row p of a block, from the body's loads. -/
def blockGates (P0 : FVec Ideal S512x256 .f32) (P1 : FVec Ideal S512x512 .f32) (P2 : FVec Ideal S256x2048 .bf16)
    (P3 : FVec Ideal S512x2048 .bf16) (P4 P5 P6 : FVec Ideal S1x2048 .f32) (p : Fin 512) : Fin 2048 → EReal :=
  CellSpec.gate (blockPre P0 P1 P2 P3 P4 p) (fun j => P5 (ix2 (0 : Fin 1) j)) (fun j => P6 (ix2 (0 : Fin 1) j))

/-- The body's γ-scaled block plus β's row, along row p, is that row of gates. -/
theorem gatesBlk_eq (P0 : FVec Ideal S512x256 .f32) (P1 : FVec Ideal S512x512 .f32) (P2 : FVec Ideal S256x2048 .bf16)
    (P3 : FVec Ideal S512x2048 .bf16) (P4 P5 P6 : FVec Ideal S1x2048 .f32) (p : Fin 512) :
    (fun j => k0_pay4 (F := Ideal) P0 P1 P2 P3 P4 P5 (ix2 p j) + k0_pay5 (F := Ideal) P6 (ix2 p j))
      = blockGates P0 P1 P2 P3 P4 P5 P6 p :=
  funext fun j => by
    rw [pay4_apply]
    exact congrArg (fun s => CellSpec.scaled (blockPre P0 P1 P2 P3 P4 p) (fun j' => P5 (ix2 (0 : Fin 1) j')) j + s)
      (rowSpread_apply P6 p j)

theorem storedC_apply (P0 : FVec Ideal S512x256 .f32) (P1 : FVec Ideal S512x512 .f32) (P2 : FVec Ideal S256x2048 .bf16)
    (P3 : FVec Ideal S512x2048 .bf16) (P4 P5 P6 : FVec Ideal S1x2048 .f32) (P7 : FVec Ideal S512x512 .f32) (p q : Fin 512) :
    k0_pay2 (F := Ideal) (k0_pay4 P0 P1 P2 P3 P4 P5) (k0_pay5 P6) P7 (ix2 p q)
      = CellSpec.cNew (blockGates P0 P1 P2 P3 P4 P5 P6 p) (P7 (ix2 p q)) q := by
  rw [pay2_apply, gatesBlk_eq]

theorem storedH_apply (P0 : FVec Ideal S512x256 .f32) (P1 : FVec Ideal S512x512 .f32) (P2 : FVec Ideal S256x2048 .bf16)
    (P3 : FVec Ideal S512x2048 .bf16) (P4 P5 P6 : FVec Ideal S1x2048 .f32) (P7 : FVec Ideal S512x512 .f32) (p q : Fin 512) :
    k0_pay3 (F := Ideal) (k0_pay4 P0 P1 P2 P3 P4 P5) (k0_pay5 P6) P7 (ix2 p q)
      = CellSpec.hNew (blockGates P0 P1 P2 P3 P4 P5 P6 p) (P7 (ix2 p q)) q := by
  rw [pay3_apply, gatesBlk_eq]

end Cert.KernelIdeal.Block

end
-- ==== Proof.CellArrays.lean ====
/-
  From the blocks to the two result arrays.

  The grid has 64 points; point t holds batch rows 512·t … 512·t + 511. Its blocks of x, h and the old cell state are
  those rows of the arguments; its blocks of the two halves of W and of the three parameter rows are those arrays
  whole, and those arrays are what the host wrote before the launch: W's first 256 rows and its last 512 rows (a
  change of float format is the identity on the extended reals), and b, γ, β as rows of a [1, 2048] array. So the
  gates of row p of point t's block are the specification's gates of batch row 512·t + p, and what point t writes
  back into either result is block t of the specification's result. Every batch row r lies in the block of exactly
  the point r / 512, so the blocks cover both result arrays, which therefore end holding the specification's new
  hidden state and new cell state; the arguments end as they were.
-/
import proofs.«118469_j77481210020038_1_alg».proof.Proof.KernelIdealValue
import proofs.«118469_j77481210020038_1_alg».proof.Proof.GatesBlock
import Idealize.ShloMosaic.Lib.Pipeline.Value
import Idealize.ShloMosaic.Lib.ValueLayout
import Idealize.ShloMosaic.Lib.StableHlo.Run

noncomputable section

namespace Cert.KernelIdeal.Arrays

open Idealize.ShloMosaic Idealize.ShloMosaic.TcCoe Idealize.ShloMosaic.ValueIdx Idealize.SL.Sem
open Cert Cert.KernelIdeal Cert.KernelIdeal.Gen Cert.KernelIdeal.Block
open Idealize.ShloMosaic.Pipeline (Dat)
open Idealize.ShloMosaic.Column (ext1 ext2)

variable (m : (ℓ : Loc nD τ sig) → Buf (Elt Ideal) ℓ) (ρ : Dev nD → PrngReg)

/-! ## The arguments and the two results -/

abbrev argX (c : Dev nD) : FVec Ideal S32768x256 .f32 := m ((c : Thread nD τ).loc main_arg0)
abbrev argH (c : Dev nD) : FVec Ideal S32768x512 .f32 := m ((c : Thread nD τ).loc main_arg1)
abbrev argC (c : Dev nD) : FVec Ideal S32768x512 .f32 := m ((c : Thread nD τ).loc main_arg2)
abbrev argW (c : Dev nD) : FVec Ideal S768x2048 .f32 := m ((c : Thread nD τ).loc main_arg3)
abbrev argB (c : Dev nD) : FVec Ideal S2048 .f32 := m ((c : Thread nD τ).loc main_arg4)
abbrev argG (c : Dev nD) : FVec Ideal S2048 .f32 := m ((c : Thread nD τ).loc main_arg5)
abbrev argBe (c : Dev nD) : FVec Ideal S2048 .f32 := m ((c : Thread nD τ).loc main_arg6)

/-- The specification's new cell state of core c's arguments. -/
def resC (c : Dev nD) : FVec Ideal S32768x512 .f32 :=
  CellSpec.cellC (argX m c) (argH m c) (argC m c) (argW m c) (argB m c) (argG m c) (argBe m c)

/-- The specification's new hidden state of core c's arguments. -/
def resH (c : Dev nD) : FVec Ideal S32768x512 .f32 :=
  CellSpec.cellH (argX m c) (argH m c) (argC m c) (argW m c) (argB m c) (argG m c) (argBe m c)

/-! ## The grid -/

theorem hz : (![0, 0] : Fin 2 → Nat) = fun _ => 0 := funext fun a => by fin_cases a <;> rfl

theorem points : cfg0.N = 64 := N_0

/-- The printed index maps, decided once over the 64 points: the row-tiled windows sit at block (t, 0), the resident
    ones at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Batch row 512·t + p: row p of point t's block. -/
def rowOf (t : Fin cfg0.N) (p : Fin 512) : Fin 32768 :=
  ⟨512 * t.val + p.val, by have h1 := t.isLt; have h2 : cfg0.N = 64 := N_0; have h3 := p.isLt; omega⟩

/-! ## The blocks, read at an entry -/

abbrev xblk (c : Dev nD) (t : Fin cfg0.N) : FVec Ideal S512x256 .f32 := iblk m c 0 t
abbrev hblk (c : Dev nD) (t : Fin cfg0.N) : FVec Ideal S512x512 .f32 := iblk m c 1 t
abbrev cblk (c : Dev nD) (t : Fin cfg0.N) : FVec Ideal S512x512 .f32 := iblk m c 2 t
abbrev wxblk (c : Dev nD) (t : Fin cfg0.N) : FVec Ideal S256x2048 .bf16 := iblk m c 3 t
abbrev whblk (c : Dev nD) (t : Fin cfg0.N) : FVec Ideal S512x2048 .bf16 := iblk m c 4 t
abbrev bblk (c : Dev nD) (t : Fin cfg0.N) : FVec Ideal S1x2048 .f32 := iblk m c 5 t
abbrev gblk (c : Dev nD) (t : Fin cfg0.N) : FVec Ideal S1x2048 .f32 := iblk m c 6 t
abbrev beblk (c : Dev nD) (t : Fin cfg0.N) : FVec Ideal S1x2048 .f32 := iblk m c 7 t

theorem xblk_apply (c : Dev nD) (t : Fin cfg0.N) (p : Fin 512) (k : Fin 256) :
    xblk m c t (ix2 p k) = argX m c (ix2 (rowOf t p) k) := by
  obtain ⟨⟨e0, e1⟩, -⟩ := idx_facts t
  show V m c main_arg0 (((cfg0.win 0).blk t).view.emb (ix2 p k)) = _
  rw [V_main_arg0]
  refine congrArg (argX m c) (ext2 (a := 32768) (b := 256) ?_ ?_)
  · show win0_0.index t (0 : Fin 2) * 512 + 1 * p.val = 512 * t.val + p.val
    omega
  · show win0_0.index t (1 : Fin 2) * 256 + 1 * k.val = k.val
    omega

theorem hblk_apply (c : Dev nD) (t : Fin cfg0.N) (p : Fin 512) (k : Fin 512) :
    hblk m c t (ix2 p k) = argH m c (ix2 (rowOf t p) k) := by
  obtain ⟨-, ⟨e0, e1⟩, -⟩ := idx_facts t
  show V m c main_arg1 (((cfg0.win 1).blk t).view.emb (ix2 p k)) = _
  rw [V_main_arg1]
  refine congrArg (argH m c) (ext2 (a := 32768) (b := 512) ?_ ?_)
  · show win0_1.index t (0 : Fin 2) * 512 + 1 * p.val = 512 * t.val + p.val
    omega
  · show win0_1.index t (1 : Fin 2) * 512 + 1 * k.val = k.val
    omega

theorem cblk_apply (c : Dev nD) (t : Fin cfg0.N) (p : Fin 512) (q : Fin 512) :
    cblk m c t (ix2 p q) = argC m c (ix2 (rowOf t p) q) := by
  obtain ⟨-, -, ⟨e0, e1⟩, -⟩ := idx_facts t
  show V m c main_arg2 (((cfg0.win 2).blk t).view.emb (ix2 p q)) = _
  rw [V_main_arg2]
  refine congrArg (argC m c) (ext2 (a := 32768) (b := 512) ?_ ?_)
  · show win0_2.index t (0 : Fin 2) * 512 + 1 * p.val = 512 * t.val + p.val
    omega
  · show win0_2.index t (1 : Fin 2) * 512 + 1 * q.val = q.val
    omega

/-- What the host wrote into the first half of W: its first 256 rows. -/
theorem wx_arr (c : Dev nD) :
    (V m c main_v1 : S256x2048.Idx → EReal)
      = truncf .bf16 (extractStridedSlice S256x2048 ![0, 0] (argW m c) slices_S768x2048_S256x2048_0_0) bitsLt_bf16_f32 := by
  dsimp only [Gen.V, Gen.hostOps0]
  after_results

/-- What the host wrote into the second half of W: its last 512 rows. -/
theorem wh_arr (c : Dev nD) :
    (V m c main_v3 : S512x2048.Idx → EReal)
      = truncf .bf16 (extractStridedSlice S512x2048 ![256, 0] (argW m c) slices_S768x2048_S512x2048_256_0) bitsLt_bf16_f32 := by
  dsimp only [Gen.V, Gen.hostOps0]
  after_results

theorem b_arr (c : Dev nD) :
    (V m c main_v4 : S1x2048.Idx → EReal) = shapeCast S1x2048 (argB m c) shapeCasts_S2048_S1x2048 := by
  dsimp only [Gen.V, Gen.hostOps0]
  after_results
  rfl

theorem g_arr (c : Dev nD) :
    (V m c main_v5 : S1x2048.Idx → EReal) = shapeCast S1x2048 (argG m c) shapeCasts_S2048_S1x2048 := by
  dsimp only [Gen.V, Gen.hostOps0]
  after_results
  rfl

theorem be_arr (c : Dev nD) :
    (V m c main_v6 : S1x2048.Idx → EReal) = shapeCast S1x2048 (argBe m c) shapeCasts_S2048_S1x2048 := by
  dsimp only [Gen.V, Gen.hostOps0]
  after_results
  rfl

theorem wxblk_apply (c : Dev nD) (t : Fin cfg0.N) (k : Fin 256) (j : Fin 2048) :
    wxblk m c t (ix2 k j) = argW m c (ix2 (CellSpec.wTop k) j) := by
  obtain ⟨-, -, -, ⟨e0, e1⟩, -⟩ := idx_facts t
  show (V m c main_v1 : S256x2048.Idx → EReal) (((cfg0.win 3).blk t).view.emb (ix2 k j)) = _
  rw [show ((cfg0.win 3).blk t).view.emb (ix2 k j) = ix2 k j from ext2 (a := 256) (b := 2048)
      (by show win0_3.index t (0 : Fin 2) * 256 + 1 * k.val = k.val; omega)
      (by show win0_3.index t (1 : Fin 2) * 2048 + 1 * j.val = j.val; omega)]
  refine (congrFun (wx_arr m c) (ix2 k j)).trans ?_
  exact extractStridedSlice_apply ![0, 0] (argW m c) slices_S768x2048_S256x2048_0_0 (ix2 k j) (ix2 (CellSpec.wTop k) j)
    (fun a => by
      match a with
      | ⟨0, _⟩ => show k.val = 0 + k.val; omega
      | ⟨1, _⟩ => show j.val = 0 + j.val; omega)

theorem whblk_apply (c : Dev nD) (t : Fin cfg0.N) (k : Fin 512) (j : Fin 2048) :
    whblk m c t (ix2 k j) = argW m c (ix2 (CellSpec.wBot k) j) := by
  obtain ⟨-, -, -, -, ⟨e0, e1⟩, -⟩ := idx_facts t
  show (V m c main_v3 : S512x2048.Idx → EReal) (((cfg0.win 4).blk t).view.emb (ix2 k j)) = _
  rw [show ((cfg0.win 4).blk t).view.emb (ix2 k j) = ix2 k j from ext2 (a := 512) (b := 2048)
      (by show win0_4.index t (0 : Fin 2) * 512 + 1 * k.val = k.val; omega)
      (by show win0_4.index t (1 : Fin 2) * 2048 + 1 * j.val = j.val; omega)]
  refine (congrFun (wh_arr m c) (ix2 k j)).trans ?_
  exact extractStridedSlice_apply ![256, 0] (argW m c) slices_S768x2048_S512x2048_256_0 (ix2 k j) (ix2 (CellSpec.wBot k) j)
    (fun a => by
      match a with
      | ⟨0, _⟩ => show 256 + k.val = 256 + k.val; rfl
      | ⟨1, _⟩ => show j.val = 0 + j.val; omega)

theorem bblk_apply (c : Dev nD) (t : Fin cfg0.N) (j : Fin 2048) :
    bblk m c t (ix2 (0 : Fin 1) j) = argB m c (ix1 j) := by
  obtain ⟨-, -, -, -, -, ⟨e0, e1⟩, -⟩ := idx_facts t
  show (V m c main_v4 : S1x2048.Idx → EReal) (((cfg0.win 5).blk t).view.emb (ix2 (0 : Fin 1) j)) = _
  rw [show ((cfg0.win 5).blk t).view.emb (ix2 (0 : Fin 1) j) = ix2 (0 : Fin 1) j from ext2 (a := 1) (b := 2048)
      (by show win0_5.index t (0 : Fin 2) * 1 + 1 * 0 = 0; omega)
      (by show win0_5.index t (1 : Fin 2) * 2048 + 1 * j.val = j.val; omega)]
  exact (congrFun (b_arr m c) _).trans (shapeCast_a_1a_apply (argB m c) shapeCasts_S2048_S1x2048 0 j)

theorem gblk_apply (c : Dev nD) (t : Fin cfg0.N) (j : Fin 2048) :
    gblk m c t (ix2 (0 : Fin 1) j) = argG m c (ix1 j) := by
  obtain ⟨-, -, -, -, -, -, ⟨e0, e1⟩, -⟩ := idx_facts t
  show (V m c main_v5 : S1x2048.Idx → EReal) (((cfg0.win 6).blk t).view.emb (ix2 (0 : Fin 1) j)) = _
  rw [show ((cfg0.win 6).blk t).view.emb (ix2 (0 : Fin 1) j) = ix2 (0 : Fin 1) j from ext2 (a := 1) (b := 2048)
      (by show win0_6.index t (0 : Fin 2) * 1 + 1 * 0 = 0; omega)
      (by show win0_6.index t (1 : Fin 2) * 2048 + 1 * j.val = j.val; omega)]
  exact (congrFun (g_arr m c) _).trans (shapeCast_a_1a_apply (argG m c) shapeCasts_S2048_S1x2048 0 j)

theorem beblk_apply (c : Dev nD) (t : Fin cfg0.N) (j : Fin 2048) :
    beblk m c t (ix2 (0 : Fin 1) j) = argBe m c (ix1 j) := by
  obtain ⟨-, -, -, -, -, -, -, ⟨e0, e1⟩, -⟩ := idx_facts t
  show (V m c main_v6 : S1x2048.Idx → EReal) (((cfg0.win 7).blk t).view.emb (ix2 (0 : Fin 1) j)) = _
  rw [show ((cfg0.win 7).blk t).view.emb (ix2 (0 : Fin 1) j) = ix2 (0 : Fin 1) j from ext2 (a := 1) (b := 2048)
      (by show win0_7.index t (0 : Fin 2) * 1 + 1 * 0 = 0; omega)
      (by show win0_7.index t (1 : Fin 2) * 2048 + 1 * j.val = j.val; omega)]
  exact (congrFun (be_arr m c) _).trans (shapeCast_a_1a_apply (argBe m c) shapeCasts_S2048_S1x2048 0 j)

/-! ## A block row's gates are the batch row's gates -/

theorem blockPre_eq (c : Dev nD) (t : Fin cfg0.N) (p : Fin 512) :
    blockPre (xblk m c t) (hblk m c t) (wxblk m c t) (whblk m c t) (bblk m c t) p
      = CellSpec.preAct (argX m c) (argH m c) (argW m c) (argB m c) (rowOf t p) := by
  funext j
  unfold blockPre CellSpec.preAct
  refine congrArg₂ (· + ·) (congrArg₂ (· + ·) (Finset.sum_congr rfl fun k _ => ?_) (Finset.sum_congr rfl fun k _ => ?_)) ?_
  · rw [xblk_apply, wxblk_apply]
  · rw [hblk_apply, whblk_apply]
  · exact bblk_apply m c t j

theorem blockGates_eq (c : Dev nD) (t : Fin cfg0.N) (p : Fin 512) :
    blockGates (xblk m c t) (hblk m c t) (wxblk m c t) (whblk m c t) (bblk m c t) (gblk m c t) (beblk m c t) p
      = CellSpec.gatesOf (argX m c) (argH m c) (argW m c) (argB m c) (argG m c) (argBe m c) (rowOf t p) := by
  unfold blockGates CellSpec.gatesOf
  rw [blockPre_eq,
    show (fun j => gblk m c t (ix2 (0 : Fin 1) j)) = fun j => argG m c (ix1 j) from funext fun j => gblk_apply m c t j,
    show (fun j => beblk m c t (ix2 (0 : Fin 1) j)) = fun j => argBe m c (ix1 j) from funext fun j => beblk_apply m c t j]

/-! ## What the body leaves, and what a point writes back -/

/-- The new-cell-state buffer after the body, at (p, q), over any loaded blocks. -/
theorem outC_apply (x0 : FVec Ideal S512x256 .f32) (x1 x2 : FVec Ideal S512x512 .f32) (x3 : FVec Ideal S256x2048 .bf16)
    (x4 : FVec Ideal S512x2048 .bf16) (x5 x6 x7 : FVec Ideal S1x2048 .f32) (p q : Fin 512) :
    out0_9 (F := Ideal) x0 x1 x2 x3 x4 x5 x6 x7 (ix2 p q)
      = CellSpec.cNew (blockGates x0 x1 x3 x4 x5 x6 x7 p) (x2 (ix2 p q)) q := by
  unfold out0_9
  rw [View.canon_unit_zero hz]
  simp only [View.ld_unit_zero (S := S512x256) hz, View.ld_unit_zero (S := S512x512) hz,
    View.ld_unit_zero (S := S256x2048) hz, View.ld_unit_zero (S := S512x2048) hz, View.ld_unit_zero (S := S1x2048) hz]
  exact storedC_apply x0 x1 x3 x4 x5 x6 x7 x2 p q

/-- The new-hidden-state buffer after the body, at (p, q), over any loaded blocks. -/
theorem outH_apply (x0 : FVec Ideal S512x256 .f32) (x1 x2 : FVec Ideal S512x512 .f32) (x3 : FVec Ideal S256x2048 .bf16)
    (x4 : FVec Ideal S512x2048 .bf16) (x5 x6 x7 : FVec Ideal S1x2048 .f32) (p q : Fin 512) :
    out0_8 (F := Ideal) x0 x1 x2 x3 x4 x5 x6 x7 (ix2 p q)
      = CellSpec.hNew (blockGates x0 x1 x3 x4 x5 x6 x7 p) (x2 (ix2 p q)) q := by
  unfold out0_8
  rw [View.canon_unit_zero hz]
  simp only [View.ld_unit_zero (S := S512x256) hz, View.ld_unit_zero (S := S512x512) hz,
    View.ld_unit_zero (S := S256x2048) hz, View.ld_unit_zero (S := S512x2048) hz, View.ld_unit_zero (S := S1x2048) hz]
  exact storedH_apply x0 x1 x3 x4 x5 x6 x7 x2 p q

/-- At point t the body leaves, in the new-cell-state buffer, rows 512·t … of the specification's result. -/
theorem blockC_eq (c : Dev nD) (t : Fin cfg0.N) :
    out0_9 (F := Ideal) (xblk m c t) (hblk m c t) (cblk m c t) (wxblk m c t) (whblk m c t) (bblk m c t) (gblk m c t) (beblk m c t)
      = fun y : S512x512.Idx => resC m c (ix2 (rowOf t (y 0)) (y 1)) := by
  funext y
  obtain ⟨p, q, rfl⟩ : ∃ (p q : Fin 512), y = ix2 p q := ⟨y 0, y 1, eq_ix2 y⟩
  rw [outC_apply, blockGates_eq, cblk_apply]
  rfl

theorem blockH_eq (c : Dev nD) (t : Fin cfg0.N) :
    out0_8 (F := Ideal) (xblk m c t) (hblk m c t) (cblk m c t) (wxblk m c t) (whblk m c t) (bblk m c t) (gblk m c t) (beblk m c t)
      = fun y : S512x512.Idx => resH m c (ix2 (rowOf t (y 0)) (y 1)) := by
  funext y
  obtain ⟨p, q, rfl⟩ : ∃ (p q : Fin 512), y = ix2 p q := ⟨y 0, y 1, eq_ix2 y⟩
  rw [outH_apply, blockGates_eq, cblk_apply]
  rfl

/-- What point t writes back into the new cell state is block t of the specification's result. -/
theorem flushedC_eq (c : Dev nD) (t : Fin cfg0.N) :
    (dats m 0 c).flushed 9 t = ((cfg0.win 9).blk t).view.read (Elt Ideal) (resC m c) := by
  obtain ⟨-, -, -, -, -, -, -, -, -, ⟨e0, e1⟩⟩ := idx_facts t
  rw [ValueP.flushed9]
  funext y
  show out0_9 (F := Ideal) (xblk m c t) (hblk m c t) (cblk m c t) (wxblk m c t) (whblk m c t) (bblk m c t) (gblk m c t) (beblk m c t) y = resC m c (((cfg0.win 9).blk t).view.emb y)
  refine (congrFun (blockC_eq m c t) y).trans ?_
  refine congrArg (resC m c) (ext2 (a := 32768) (b := 512) ?_ ?_)
  · show 512 * t.val + (y 0).val = win0_9.index t (0 : Fin 2) * 512 + 1 * (y 0).val
    omega
  · show (y 1).val = win0_9.index t (1 : Fin 2) * 512 + 1 * (y 1).val
    omega

/-- What point t writes back into the new hidden state is block t of the specification's result. -/
theorem flushedH_eq (c : Dev nD) (t : Fin cfg0.N) :
    (dats m 0 c).flushed 8 t = ((cfg0.win 8).blk t).view.read (Elt Ideal) (resH m c) := by
  obtain ⟨-, -, -, -, -, -, -, -, ⟨e0, e1⟩, -⟩ := idx_facts t
  rw [ValueP.flushed8]
  funext y
  show out0_8 (F := Ideal) (xblk m c t) (hblk m c t) (cblk m c t) (wxblk m c t) (whblk m c t) (bblk m c t) (gblk m c t) (beblk m c t) y = resH m c (((cfg0.win 8).blk t).view.emb y)
  refine (congrFun (blockH_eq m c t) y).trans ?_
  refine congrArg (resH m c) (ext2 (a := 32768) (b := 512) ?_ ?_)
  · show 512 * t.val + (y 0).val = win0_8.index t (0 : Fin 2) * 512 + 1 * (y 0).val
    omega
  · show (y 1).val = win0_8.index t (1 : Fin 2) * 512 + 1 * (y 1).val
    omega

/-! ## The blocks cover the arrays -/

/-- An index of the new cell state is in point t's block iff each coordinate is in the block's range on its axis. -/
theorem mem_blkC (t : Fin cfg0.N) (i : S32768x512.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v7_1).slice (win0_9.rect t)).set ↔ _
  rw [View.set_slice_whole, Rect.mem_set_unit]
  exact Iff.rfl

theorem mem_blkH (t : Fin cfg0.N) (i : S32768x512.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v7_0).slice (win0_8.rect t)).set ↔ _
  rw [View.set_slice_whole, Rect.mem_set_unit]
  exact Iff.rfl

/-- Batch row r lies in the block of the point r / 512. -/
theorem coverC (i : S32768x512.Idx) :
    ∃ t : Fin cfg0.N, (cfg0.win 9).flush t = true ∧ i ∈ ((cfg0.win 9).blk t).view.set := by
  have hi0 : (i 0).val < 32768 := (i 0).isLt
  have hi1 : (i 1).val < 512 := (i 1).isLt
  have hN : cfg0.N = 64 := N_0
  obtain ⟨t, ht⟩ : ∃ t : Fin cfg0.N, t.val = (i 0).val / 512 := ⟨⟨(i 0).val / 512, by omega⟩, rfl⟩
  obtain ⟨-, -, -, -, -, -, -, -, -, ⟨e0, e1⟩⟩ := idx_facts t
  refine ⟨t, flush0_9 t, ?_⟩
  rw [mem_blkC]
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 512 ≤ (i 1).val ∧ (i 1).val < win0_9.index t (1 : Fin 2) * 512 + 512
    omega

theorem coverH (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 64 := N_0
  obtain ⟨t, ht⟩ : ∃ t : Fin cfg0.N, t.val = (i 0).val / 512 := ⟨⟨(i 0).val / 512, by omega⟩, rfl⟩
  obtain ⟨-, -, -, -, -, -, -, -, ⟨e0, e1⟩, -⟩ := idx_facts t
  refine ⟨t, flush0_8 t, ?_⟩
  rw [mem_blkH]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 512 ≤ (i 1).val ∧ (i 1).val < win0_8.index t (1 : Fin 2) * 512 + 512
    omega

/-! ## The arrays after the run -/

theorem finalC (c : Dev nD) : (dats m 0 c).arrAt 9 cfg0.N = resC m c :=
  (dats m 0 c).arrAt_eq_of_cover 9 (resC m c) (fun t _ => flushedC_eq m c t) coverC

theorem finalH (c : Dev nD) : (dats m 0 c).arrAt 8 cfg0.N = resH m c :=
  (dats m 0 c).arrAt_eq_of_cover 8 (resH m c) (fun t _ => flushedH_eq m c t) coverH

/-- Every weakly fair execution of the idealized kernel's program ends with the two results at the specification's
    new hidden state and new cell state of the arguments, and the arguments as they were. -/
theorem run : θ_run defs (onTc (τ := τ) (main (F := Ideal))) ⟨m, fun _ => 0, ρ⟩ fun r => ∀ c : Dev nD,
      r.2.mem ((c : Thread nD τ).loc main_v7_0) = resH m c
      ∧ r.2.mem ((c : Thread nD τ).loc main_v7_1) = resC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun r h c => ⟨(h c).1.trans (finalH m c), (h c).2.1.trans (finalC m c), (h c).2.2⟩)
    (ValueP.run_blocks m ρ)

end Cert.KernelIdeal.Arrays

end
-- ==== Proof.lean ====
/-
  A layer-normalised LSTM cell, fused in one kernel, against its plain reference: equal over the extended reals.

  Both programs compute, for each of 32768 batch rows, the pre-activation z = [x | h] · W + b (2048 lanes), normalise
  it along the lanes (mean and variance over 2048, ε added to the variance, the inverse square root), scale by γ and
  add β, cut the row into the input, forget, candidate and output runs of 512 lanes, and return
      c' = s(f) · c + s(i) · tanh(g),        h' = s(o) · tanh(c'),
  with s the logistic function. They differ in three spellings, none of which is a difference on the extended reals:
  the kernel multiplies x and h separately against the two halves of W (cast to a narrower float format, which is
  the identity here) and adds the products, where the reference multiplies the joined row against the whole of W — a
  sum of 768 terms split into its first 256 and its last 512; the kernel's logistic is one operation where the
  reference writes 1 / (1 + e^(−a)), which is its definition; and the kernel works on blocks of 512 rows, whose
  write-backs tile both result arrays. The divisor 2048 and ε are the same f32 words on both sides and are never
  evaluated. No finiteness of the inputs is used: the only law of addition asked for is that it is a commutative
  monoid.

  The three frames: the two kernels' by the generated frame certificates, the reference's by its generated run with
  the results dropped. The idealized kernel is the kernel's own text read on the extended reals (no rewrite was
  applied), so that conjunct is `True`. The value conjunct sets the kernel's run (the result arrays at the
  specification's `cellH` and `cellC` of the arguments) beside the reference's run (its two result terms, which are
  the same two functions of its arguments), the arguments agreeing.
-/
import proofs.«118469_j77481210020038_1_alg».proof.Defs
import proofs.«118469_j77481210020038_1_alg».proof.Proof.Gen.Kernel
import proofs.«118469_j77481210020038_1_alg».proof.Proof.Gen.Kernel.Skeleton
import proofs.«118469_j77481210020038_1_alg».proof.Proof.Gen.Kernel.Launch
import proofs.«118469_j77481210020038_1_alg».proof.Proof.Gen.Kernel.Points
import proofs.«118469_j77481210020038_1_alg».proof.Proof.Gen.Kernel.Frame
import proofs.«118469_j77481210020038_1_alg».proof.Proof.Gen.KernelIdeal
import proofs.«118469_j77481210020038_1_alg».proof.Proof.Gen.KernelIdeal.Skeleton
import proofs.«118469_j77481210020038_1_alg».proof.Proof.Gen.KernelIdeal.Launch
import proofs.«118469_j77481210020038_1_alg».proof.Proof.Gen.KernelIdeal.Points
import proofs.«118469_j77481210020038_1_alg».proof.Proof.Gen.KernelIdeal.Frame
import proofs.«118469_j77481210020038_1_alg».proof.Proof.Gen.ReferenceIdeal
import proofs.«118469_j77481210020038_1_alg».proof.Proof.Gen.Pre_finite_inputs
import proofs.«118469_j77481210020038_1_alg».proof.Proof.Gen.ReferenceIdeal.Run
import proofs.«118469_j77481210020038_1_alg».proof.Proof.Gen.ReferenceIdeal.Read
import proofs.«118469_j77481210020038_1_alg».proof.Proof.RefCell
import proofs.«118469_j77481210020038_1_alg».proof.Proof.CellArrays
import Idealize.ShloMosaic.Adequacy
import Idealize.ShloMosaic.Init

noncomputable section

namespace Cert.Proof

open Idealize.ShloMosaic Idealize.SL.Sem

/-- The kernel, at the machine's words: every weakly fair execution ends, without a fault, the arguments unchanged. -/
theorem frame_k : Cert.frame_Kernel := fun m ρ _ => Cert.Kernel.Gen.frame m ρ

/-- The same of the kernel read on the extended reals. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- No operation of the kernel was rewritten for the reading on the extended reals. -/
theorem preserves : Cert.preserves_Kernel_KernelIdeal := trivial

/-- Both programs end with the specification's new hidden state and new cell state of their arguments. -/
theorem algebraic : Cert.algebraic_KernelIdeal_ReferenceIdeal := by
  intro m ρ m' ρ' _ hagree
  refine ⟨fun c => Cert.KernelIdeal.Arrays.resH m c, fun c => Cert.KernelIdeal.Arrays.resC m c,
    Cert.KernelIdeal.Arrays.run m ρ, ?_⟩
  refine (θ_run Cert.ReferenceIdeal.defs _ _).mono (fun r h c => ?_)
    (Cert.ReferenceIdeal.Value.run (F := Ideal) m' ρ')
  obtain ⟨e0, e1, e2, e3, e4, e5, e6⟩ := hagree c
  refine ⟨(h c).1.trans ?_, (h c).2.1.trans ?_, (h c).2.2⟩
  · rw [Cert.ReferenceIdeal.Read.val_main_v56_eq, Cert.ReferenceIdeal.RefCell.h_eq, e0, e1, e2, e3, e4, e5, e6]
    rfl
  · rw [Cert.ReferenceIdeal.Read.val_main_v54_eq, Cert.ReferenceIdeal.RefCell.c_eq, e0, e1, e2, e3, e4, e5, e6]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
